-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x2048 32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096x2048 : Shape := ⟨2, ![4096, 2048]⟩
abbrev S4096 : Shape := ⟨1, ![4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S1x4096 : Shape := ⟨2, ![1, 4096]⟩
abbrev S2048x128 : Shape := ⟨2, ![2048, 128]⟩
abbrev S1024x128 : Shape := ⟨2, ![1024, 128]⟩
abbrev S1x1024 : Shape := ⟨2, ![1, 1024]⟩
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 11
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096, .f32⟩
  | .hbm, ⟨3, _⟩ => ⟨S8192x4096, .bf16⟩
  | .hbm, ⟨4, _⟩ => ⟨S8192x2048x2, .bf16⟩
  | .hbm, ⟨5, _⟩ => ⟨S8192x2048x1, .bf16⟩
  | .hbm, ⟨6, _⟩ => ⟨S8192x2048, .bf16⟩
  | .hbm, ⟨7, _⟩ => ⟨S8192x2048x1, .bf16⟩
  | .hbm, ⟨8, _⟩ => ⟨S8192x2048, .bf16⟩
  | .hbm, ⟨9, _⟩ => ⟨S1x4096, .f32⟩
  | .hbm, ⟨10, _⟩ => ⟨S8192x4096, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .i32⟩
  | .local _ .vmem, ⟨5, _⟩ => ⟨S1024x128, .i32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32_11 : BitVec 32 := 15#32
  let v24 : BitVec 1 := Scalar.cmpi .eq arg2 c15_i32_11
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  concatenates_S2048x128_S2048x128_S2048x256_d1 : Shape.Concatenates [S2048x128, S2048x128] S2048x256 1
  concatenates_S1024x128_S1024x128_S1024x256_d1 : Shape.Concatenates [S1024x128, S1024x128] S1024x256 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x2048.size a
  hwx0_0 : ∀ i : grid0.Coords, EltTy.bits .bf16 = 32 ∨ (Rect.block (s := S8192x2048) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x2048.size a
  hwx0_1 : ∀ i : grid0.Coords, EltTy.bits .bf16 = 32 ∨ (Rect.block (s := S8192x2048) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x2048.size a
  hwx0_2 : ∀ i : grid0.Coords, EltTy.bits .i32 = 32 ∨ (Rect.block (s := S4096x2048) S1024x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v3) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096, .f32⟩
  | .hbm, ⟨3, _⟩ => ⟨S_, .i32⟩
  | .hbm, ⟨4, _⟩ => ⟨S4096x2048, .i32⟩
  | .hbm, ⟨5, _⟩ => ⟨S4096x2048, .i32⟩
  | .hbm, ⟨6, _⟩ => ⟨S4096x2048, .f32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S4096x2048, .f32⟩
  | .hbm, ⟨14, _⟩ => ⟨S4096x2048x1, .f32⟩
  | .hbm, ⟨15, _⟩ => ⟨S4096x2048x1, .f32⟩
  | .hbm, ⟨16, _⟩ => ⟨S4096x2048x2, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelPieces.lean ====
/-
  What each control case of the kernel body leaves behind, as values. The body keeps a [2048, 1024] accumulator in a
  scratch buffer across the grid's innermost axis: at the first step it stores zeros there, at every step it adds
  that step's product of the concatenated activations and the concatenated nibble planes, and at the last step it
  also stores the accumulator plus the broadcast bias row into the output block.
-/
import proofs.«427487_j12867722019333_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- At a first step the accumulator ends at the step's product added to the zeros just stored. -/
theorem scratch_first (c : Dev nD) (i : grid0.Coords) (arg3 : Memref sig .tc .vmem S2048x128 .bf16) (harg3 : arg3.IsWhole) (arg4 : Memref sig .tc .vmem S2048x128 .bf16) (harg4 : arg4.IsWhole) (arg5 : Memref sig .tc .vmem S1024x128 .i32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i)
    (x0 : Vec F S2048x128 .bf16) (x1 : Vec F S2048x128 .bf16) (x2 : Vec F S1024x128 .i32) (x3 : Vec F S1x1024 .f32) :
    sout0_A_0 c i arg3 harg3 arg4 harg4 arg5 harg5 arg6 harg6 arg7 harg7 arg8 harg8 hc0 hc1 x0 x1 x2 x3 = k0_pay2 x0 x1 x2 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, View.ld_unit_zero (S := S2048x128) hz,
    View.ld_unit_zero (S := S1024x128) hz, View.ld_unit_zero (S := S2048x1024) hz]

/-- At a middle step it ends at the step's product added to what the step before left. -/
theorem scratch_middle (c : Dev nD) (i : grid0.Coords) (arg3 : Memref sig .tc .vmem S2048x128 .bf16) (harg3 : arg3.IsWhole) (arg4 : Memref sig .tc .vmem S2048x128 .bf16) (harg4 : arg4.IsWhole) (arg5 : Memref sig .tc .vmem S1024x128 .i32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i)
    (x0 : Vec F S2048x128 .bf16) (x1 : Vec F S2048x128 .bf16) (x2 : Vec F S1024x128 .i32) (x3 : Vec F S1x1024 .f32) (xs0 : Vec F S2048x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg8.read_unread, View.ld_unit_zero (S := S2048x128) hz,
    View.ld_unit_zero (S := S1024x128) hz, View.ld_unit_zero (S := S2048x1024) hz]

/-- At a last step likewise, -/
theorem scratch_last (c : Dev nD) (i : grid0.Coords) (arg3 : Memref sig .tc .vmem S2048x128 .bf16) (harg3 : arg3.IsWhole) (arg4 : Memref sig .tc .vmem S2048x128 .bf16) (harg4 : arg4.IsWhole) (arg5 : Memref sig .tc .vmem S1024x128 .i32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x128 .bf16) (x1 : Vec F S2048x128 .bf16) (x2 : Vec F S1024x128 .i32) (x3 : Vec F S1x1024 .f32) (xs0 : Vec F S2048x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg8.read_unread, View.ld_unit_zero (S := S2048x128) hz,
    View.ld_unit_zero (S := S1024x128) hz, View.ld_unit_zero (S := S2048x1024) hz]

/-- and the output block is that accumulator plus the bias row. -/
theorem out_last (c : Dev nD) (i : grid0.Coords) (arg3 : Memref sig .tc .vmem S2048x128 .bf16) (harg3 : arg3.IsWhole) (arg4 : Memref sig .tc .vmem S2048x128 .bf16) (harg4 : arg4.IsWhole) (arg5 : Memref sig .tc .vmem S1024x128 .i32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x128 .bf16) (x1 : Vec F S2048x128 .bf16) (x2 : Vec F S1024x128 .i32) (x3 : Vec F S1x1024 .f32) (xs0 : Vec F S2048x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S2048x128) hz,
    View.ld_unit_zero (S := S1024x128) hz, View.ld_unit_zero (S := S1x1024) hz, View.ld_unit_zero (S := S2048x1024) hz, View.readCov_unit_zero (S := S2048x1024) _ hz]

end Cert.KernelIdeal.Pieces

end
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.LibPairBlocks.lean ====
/-
  General lemmas for a contraction whose index runs over interleaved pairs, taken block by block, generic in the sizes
  and in the additive commutative monoid summed in.

  `sum_pairs_blocked`: a sum over `Fin (K * T * 2)` is the sum over the blocks `s : Fin K` of the block's sum of
  EVEN entries `(s * T + c) * 2` plus its sum of ODD entries `(s * T + c) * 2 + 1`, `c : Fin T`.
  `concat_cols_left` / `concat_cols_right`: a rank-2 concatenation of two [R, T] pieces along the columns reads its
  left piece at a column `c < T` and its right piece at a column `T + c`.
  `sum_concat_cols`: so a sum over the `n = T + T` columns of a product of two such concatenations (at rows `p`, `q`)
  is the left pieces' sum of products plus the right pieces'.
-/
import Idealize.ShloMosaic.Lib.ValueIdx
import Idealize.ShloMosaic.Lib.Pipeline.Value
import Mathlib.Algebra.BigOperators.Fin
import proofs.«427487_j12867722019333_3_alg».proof.Proof.LibIdxSums

noncomputable section

namespace Cert.PairBlocks

open Idealize.ShloMosaic Idealize.ShloMosaic.ValueIdx

/-- Entry `c` of block `s` lies below `K * T`. -/
theorem block_lt {K T s c : ℕ} (hs : s < K) (hc : c < T) : s * T + c < K * T :=
  calc s * T + c < s * T + T := by omega
    _ = (s + 1) * T := by rw [Nat.add_mul, Nat.one_mul]
    _ ≤ K * T := Nat.mul_le_mul_right T hs

/-- A sum over interleaved pairs, block by block: each block's even entries, then its odd entries. -/
theorem sum_pairs_blocked {M : Type*} [AddCommMonoid M] (K T : ℕ) (f : Fin (K * T * 2) → M) :
    ∑ i, f i = ∑ s : Fin K,
      ((∑ c : Fin T, f ⟨(s.val * T + c.val) * 2, by have := block_lt s.isLt c.isLt; omega⟩)
        + ∑ c : Fin T, f ⟨(s.val * T + c.val) * 2 + 1, by have := block_lt s.isLt c.isLt; omega⟩) := by
  rw [Cert.IdxSums.sum_fin_mul (K * T) 2 f]
  simp only [Fin.sum_univ_two]
  rw [Cert.IdxSums.sum_fin_mul K T]
  refine Finset.sum_congr rfl fun s _ => ?_
  rw [← Finset.sum_add_distrib]
  rfl

variable {α : Type}

/-- A column `c < T` of a two-piece concatenation along the columns is the left piece's column `c`. -/
theorem concat_cols_left {R T n : ℕ} (u v : (⟨2, ![R, T]⟩ : Shape).Idx → α)
    (h : Shape.Concatenates [(⟨2, ![R, T]⟩ : Shape), ⟨2, ![R, T]⟩] ⟨2, ![R, n]⟩ 1)
    (p : Fin R) (c : Fin T) (c' : Fin n) (hc : c'.val = c.val) :
    concatenate (⟨2, ![R, n]⟩ : Shape) 1 [⟨(⟨2, ![R, T]⟩ : Shape), u⟩, ⟨(⟨2, ![R, T]⟩ : Shape), v⟩] h (ix2 p c')
      = u (ix2 p c) :=
  concatenate_apply_piece (t := (⟨2, ![R, n]⟩ : Shape)) (1 : Fin 2)
    [⟨(⟨2, ![R, T]⟩ : Shape), u⟩, ⟨(⟨2, ![R, T]⟩ : Shape), v⟩] h (ix2 p c') 0 (by simp)
    (⟨2, ![R, T]⟩ : Shape) u rfl rfl 0 rfl (ix2 p c)
    (fun b hb => by
      match b with
      | ⟨0, _⟩ => rfl
      | ⟨1, _⟩ => exact absurd rfl hb)
    (by show 0 + c.val = c'.val; omega)

/-- A column `T + c` of it is the right piece's column `c`. -/
theorem concat_cols_right {R T n : ℕ} (u v : (⟨2, ![R, T]⟩ : Shape).Idx → α)
    (h : Shape.Concatenates [(⟨2, ![R, T]⟩ : Shape), ⟨2, ![R, T]⟩] ⟨2, ![R, n]⟩ 1)
    (p : Fin R) (c : Fin T) (c' : Fin n) (hc : c'.val = T + c.val) :
    concatenate (⟨2, ![R, n]⟩ : Shape) 1 [⟨(⟨2, ![R, T]⟩ : Shape), u⟩, ⟨(⟨2, ![R, T]⟩ : Shape), v⟩] h (ix2 p c')
      = v (ix2 p c) :=
  concatenate_apply_piece (t := (⟨2, ![R, n]⟩ : Shape)) (1 : Fin 2)
    [⟨(⟨2, ![R, T]⟩ : Shape), u⟩, ⟨(⟨2, ![R, T]⟩ : Shape), v⟩] h (ix2 p c') 1 (by simp)
    (⟨2, ![R, T]⟩ : Shape) v rfl rfl T (by simp) (ix2 p c)
    (fun b hb => by
      match b with
      | ⟨0, _⟩ => rfl
      | ⟨1, _⟩ => exact absurd rfl hb)
    (by show T + c.val = c'.val; omega)

/-- The sum over the `n = T + T` columns of a product of two such concatenations, one read at row `p` and the other
    at row `q`, is the left pieces' sum of products plus the right pieces'. -/
theorem sum_concat_cols {M : Type} [AddCommMonoid M] [Mul M] {R R' T n : ℕ} (hn : n = T + T)
    (u v : (⟨2, ![R, T]⟩ : Shape).Idx → M) (u' v' : (⟨2, ![R', T]⟩ : Shape).Idx → M)
    (h : Shape.Concatenates [(⟨2, ![R, T]⟩ : Shape), ⟨2, ![R, T]⟩] ⟨2, ![R, n]⟩ 1)
    (h' : Shape.Concatenates [(⟨2, ![R', T]⟩ : Shape), ⟨2, ![R', T]⟩] ⟨2, ![R', n]⟩ 1)
    (p : Fin R) (q : Fin R') :
    ∑ c' : Fin n,
        concatenate (⟨2, ![R, n]⟩ : Shape) 1 [⟨(⟨2, ![R, T]⟩ : Shape), u⟩, ⟨(⟨2, ![R, T]⟩ : Shape), v⟩] h (ix2 p c')
          * concatenate (⟨2, ![R', n]⟩ : Shape) 1 [⟨(⟨2, ![R', T]⟩ : Shape), u'⟩, ⟨(⟨2, ![R', T]⟩ : Shape), v'⟩] h' (ix2 q c')
      = (∑ c : Fin T, u (ix2 p c) * u' (ix2 q c)) + ∑ c : Fin T, v (ix2 p c) * v' (ix2 q c) := by
  subst hn
  rw [Fin.sum_univ_add]
  refine congrArg₂ (· + ·) (Finset.sum_congr rfl fun c _ => ?_) (Finset.sum_congr rfl fun c _ => ?_)
  · rw [concat_cols_left u v h p c (Fin.castAdd T c) rfl, concat_cols_left u' v' h' q c (Fin.castAdd T c) rfl]
  · rw [concat_cols_right u v h p c (Fin.natAdd T c) rfl, concat_cols_right u' v' h' q c (Fin.natAdd T c) rfl]

end Cert.PairBlocks

end
-- ==== Proof.Spec.lean ====
/-
  The function both programs compute, at the ideal values. The packed weight cell `wp[o, j]` holds two 4-bit
  fields: its low nibble is the weight of input feature `2 j`, its high nibble (bits 4 to 7, after an arithmetic
  shift by four) the weight of input feature `2 j + 1`; each is read as a signed integer, exactly. The result is
  `y[r, o] = Σ_i x[r, i] · W[o, i] + bias[o]` over the 4096 input features `i`.
-/
import Idealize.ShloMosaic.Lib.ValueIdx
import Idealize.ShloMosaic.PureOps.Ideal

noncomputable section

namespace Cert.PackedLinear

open Idealize.ShloMosaic Idealize.ShloMosaic.ValueIdx

/-- The low nibble of a packed cell, as the integer it spells. -/
def lowNib (w : BitVec 32) : EReal := (((IntOp.andi w 15#32).toInt : ℝ) : EReal)

/-- The high nibble: bits 4 to 7, after the arithmetic shift right by four. -/
def highNib (w : BitVec 32) : EReal := (((IntOp.andi (IntOp.shrsi .vector w 4#32) 15#32).toInt : ℝ) : EReal)

/-- The unpacked weight `W[o, i]`: the low nibble of cell `(o, i / 2)` at an even `i`, the high nibble at an odd one. -/
def weight (wp : (⟨2, ![4096, 2048]⟩ : Shape).Idx → BitVec 32) (o : Fin 4096) (i : Fin 4096) : EReal :=
  if i.val % 2 = 0 then lowNib (wp (ix2 o ⟨i.val / 2, by have := i.isLt; omega⟩))
  else highNib (wp (ix2 o ⟨i.val / 2, by have := i.isLt; omega⟩))

/-- `y[r, o] = Σ_i x[r, i] · W[o, i] + bias[o]`. -/
def result (x : (⟨2, ![8192, 4096]⟩ : Shape).Idx → EReal) (wp : (⟨2, ![4096, 2048]⟩ : Shape).Idx → BitVec 32)
    (b : (⟨1, ![4096]⟩ : Shape).Idx → EReal) : (⟨2, ![8192, 4096]⟩ : Shape).Idx → EReal :=
  fun j => (∑ i : Fin 4096, x (ix2 (j 0) i) * weight wp (j 1) i) + b (ix1 (j 1))

theorem result_apply (x : (⟨2, ![8192, 4096]⟩ : Shape).Idx → EReal) (wp : (⟨2, ![4096, 2048]⟩ : Shape).Idx → BitVec 32)
    (b : (⟨1, ![4096]⟩ : Shape).Idx → EReal) (r : Fin 8192) (o : Fin 4096) :
    result x wp b (ix2 r o) = (∑ i : Fin 4096, x (ix2 r i) * weight wp o i) + b (ix1 o) := rfl

/-- The weight of an even input feature `2 j` is the low nibble of cell `j`. -/
theorem weight_even (wp : (⟨2, ![4096, 2048]⟩ : Shape).Idx → BitVec 32) (o : Fin 4096) (j : Fin 2048) (i : Fin 4096)
    (hi : i.val = j.val * 2) : weight wp o i = lowNib (wp (ix2 o j)) := by
  unfold weight
  rw [if_pos (by omega)]
  exact congrArg (fun k => lowNib (wp (ix2 o k))) (Fin.ext (by show i.val / 2 = j.val; omega))

/-- The weight of an odd input feature `2 j + 1` is the high nibble of cell `j`. -/
theorem weight_odd (wp : (⟨2, ![4096, 2048]⟩ : Shape).Idx → BitVec 32) (o : Fin 4096) (j : Fin 2048) (i : Fin 4096)
    (hi : i.val = j.val * 2 + 1) : weight wp o i = highNib (wp (ix2 o j)) := by
  unfold weight
  rw [if_neg (by omega)]
  exact congrArg (fun k => highNib (wp (ix2 o k))) (Fin.ext (by show i.val / 2 = j.val; omega))

end Cert.PackedLinear

end
-- ==== Proof.KernelPayload.lean ====
/-
  The body's stored values, element by element, at the ideal values. The zero block is zero. One step's update adds to
  the accumulator, at row `p` and column `q` of the block, the matrix product of the activations concatenated
  [even | odd] with the nibble planes concatenated [low | high] along the contraction axis of 256: the sum over the
  step's 128 cells of even activation times low nibble, plus the sum of odd activation times high nibble. The last
  step's output adds the bias row's column `q`.
-/
import proofs.«427487_j12867722019333_3_alg».proof.Proof.Gen.KernelIdeal.Skeleton
import proofs.«427487_j12867722019333_3_alg».proof.Proof.LibPairBlocks
import proofs.«427487_j12867722019333_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen Cert.PackedLinear

/-- The zero block. -/
theorem zero_apply (j : S2048x1024.Idx) : k0_pay1 (F := Ideal) j = 0 := by
  unfold k0_pay1
  simp only [shapeCast_self]
  exact Ideal.ofBits_zero_f32

theorem lhs_axis0 (i : S2048x1024.Idx) (k : dot_S2048x256_S1024x256_S2048x1024_1_1_0_0_n_n.contr.Idx) :
    (dot_S2048x256_S1024x256_S2048x1024_1_1_0_0_n_n.lhsIdx i k 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_axis1 (i : S2048x1024.Idx) (k : dot_S2048x256_S1024x256_S2048x1024_1_1_0_0_n_n.contr.Idx) :
    (dot_S2048x256_S1024x256_S2048x1024_1_1_0_0_n_n.lhsIdx i k 1).val = (k ⟨0, by decide⟩).val :=
  dot_S2048x256_S1024x256_S2048x1024_1_1_0_0_n_n.lhsIdx_val_of_single rfl i k
theorem rhs_axis0 (i : S2048x1024.Idx) (k : dot_S2048x256_S1024x256_S2048x1024_1_1_0_0_n_n.contr.Idx) :
    (dot_S2048x256_S1024x256_S2048x1024_1_1_0_0_n_n.rhsIdx i k 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_axis1 (i : S2048x1024.Idx) (k : dot_S2048x256_S1024x256_S2048x1024_1_1_0_0_n_n.contr.Idx) :
    (dot_S2048x256_S1024x256_S2048x1024_1_1_0_0_n_n.rhsIdx i k 1).val = (k ⟨0, by decide⟩).val :=
  dot_S2048x256_S1024x256_S2048x1024_1_1_0_0_n_n.rhsIdx_val_of_single rfl i k

/-- The matrix unit's product into a zero accumulator: the sum over the 256 contraction positions of the left operand's
    row `p` times the right operand's row `q`. -/
theorem matmul_apply (l : FVec Ideal S2048x256 .bf16) (r : FVec Ideal S1024x256 .bf16) (p : Fin 2048) (q : Fin 1024) :
    matmul dot_S2048x256_S1024x256_S2048x1024_1_1_0_0_n_n none l r (constant S2048x1024 .f32 0x00000000#32) (ix2 p q)
      = ∑ k : Fin 256, l (ix2 p k) * r (ix2 q k) := by
  show FloatOps.matmul dot_S2048x256_S1024x256_S2048x1024_1_1_0_0_n_n none l r (constant S2048x1024 .f32 0x00000000#32) (ix2 p q) = _
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p q) ((contrEquiv1 dot_S2048x256_S1024x256_S2048x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S2048x256_S1024x256_S2048x1024_1_1_0_0_n_n.rhsIdx (ix2 p q) ((contrEquiv1 dot_S2048x256_S1024x256_S2048x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-- One step's contribution at row `p`, column `q`, from the step's blocks. -/
def stepDot (xe xo : Vec Ideal S2048x128 .bf16) (w : Vec Ideal S1024x128 .i32) (p : Fin 2048) (q : Fin 1024) : EReal :=
  (∑ c : Fin 128, xe (ix2 p c) * lowNib (w (ix2 q c))) + ∑ c : Fin 128, xo (ix2 p c) * highNib (w (ix2 q c))

/-- The update: the accumulator plus the step's contribution. -/
theorem update_apply (xe xo : Vec Ideal S2048x128 .bf16) (w : Vec Ideal S1024x128 .i32) (acc : Vec Ideal S2048x1024 .f32)
    (p : Fin 2048) (q : Fin 1024) :
    k0_pay2 xe xo w acc (ix2 p q) = acc (ix2 p q) + stepDot xe xo w p q := by
  unfold k0_pay2
  simp only [shapeCast_self]
  show acc (ix2 p q) + matmul (F := Ideal) dot_S2048x256_S1024x256_S2048x1024_1_1_0_0_n_n none _ _ (constant (F := Ideal) S2048x1024 .f32 0x00000000#32) (ix2 p q) = _
  rw [matmul_apply]
  refine congrArg (acc (ix2 p q) + ·) ?_
  refine (Cert.PairBlocks.sum_concat_cols (M := EReal) (T := 128) (n := 256) rfl
    (shapeCast S2048x128 xe shapeCasts_S2048x128_S2048x128) (shapeCast S2048x128 xo shapeCasts_S2048x128_S2048x128)
    (sitofp (F := Ideal) .bf16 (andi w (broadcast S1024x128 15#32)))
    (sitofp (F := Ideal) .bf16 (andi (shrsi w (broadcast S1024x128 4#32)) (broadcast S1024x128 15#32)))
    concatenates_S2048x128_S2048x128_S2048x256_d1 concatenates_S1024x128_S1024x128_S1024x256_d1 p q).trans ?_
  rw [shapeCast_self, shapeCast_self]
  rfl

/-- The last step's output: the accumulator plus the bias row at the column. -/
theorem output_apply (acc : Vec Ideal S2048x1024 .f32) (b : Vec Ideal S1x1024 .f32) (p : Fin 2048) (q : Fin 1024) :
    k0_pay3 acc b (ix2 p q) = acc (ix2 p q) + b (ix2 (0 : Fin 1) q) := by
  unfold k0_pay3
  simp only [shapeCast_self]
  show acc (ix2 p q) + broadcastTo S2048x1024 b broadcasts_S1x1024_S2048x1024 (ix2 p q) = _
  refine congrArg (acc (ix2 p q) + ·) ?_
  exact broadcastTo_apply b broadcasts_S1x1024_S2048x1024 (ix2 p q) (ix2 (0 : Fin 1) q) (fun a => by
    match a with
    | ⟨0, _⟩ => show (0 : ℕ) = if (1 : ℕ) = 1 then 0 else p.val; rw [if_pos rfl]
    | ⟨1, _⟩ => show q.val = if (1024 : ℕ) = 1 then 0 else q.val; rw [if_neg (by decide)])

end Cert.KernelIdeal.Payload

end
-- ==== Proof.KernelInputs.lean ====
/-
  What the kernel's windows read, in terms of the three arguments. Before the launch the activations are split into
  their even and odd columns (a change of float format, a view as [8192, 2048, 2], the two unit slices of the last
  axis): column `j` of the even half is column `2 j` of `x`, of the odd half column `2 j + 1`; the bias becomes a
  one-row matrix. At grid point `t` (row tile `t / 64`, column tile `t / 16 % 4`, step `t % 16`) the activation blocks
  are rows `2048 (t / 64) + p`, cells `128 (t % 16) + k`; the packed-weight block is rows `1024 (t / 16 % 4) + q`, the same
  cells; the bias block is columns `1024 (t / 16 % 4) + q`.
-/
import proofs.«427487_j12867722019333_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Inputs

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The three arguments on core `c`. -/
abbrev argX (c : Dev nD) : Vec Ideal S8192x4096 .f32 := m ((c : Thread nD τ).loc main_arg0)
abbrev argW (c : Dev nD) : Vec Ideal S4096x2048 .i32 := m ((c : Thread nD τ).loc main_arg1)
abbrev argB (c : Dev nD) : Vec Ideal S4096 .f32 := m ((c : Thread nD τ).loc main_arg2)

/-- Where each window's block sits at a grid point, decided over the grid. -/
theorem block_index : ∀ t : Fin cfg0.N,
    (win0_0.index t (0 : Fin 2) = t.val / 64 ∧ win0_0.index t (1 : Fin 2) = t.val % 16)
    ∧ (win0_1.index t (0 : Fin 2) = t.val / 64 ∧ win0_1.index t (1 : Fin 2) = t.val % 16)
    ∧ (win0_2.index t (0 : Fin 2) = t.val / 16 % 4 ∧ win0_2.index t (1 : Fin 2) = t.val % 16)
    ∧ (win0_3.index t (0 : Fin 2) = 0 ∧ win0_3.index t (1 : Fin 2) = t.val / 16 % 4)
    ∧ (win0_4.index t (0 : Fin 2) = t.val / 64 ∧ win0_4.index t (1 : Fin 2) = t.val / 16 % 4) :=
  (by decide +kernel : ∀ t : Fin grid0.N,
    (win0_0.index t (0 : Fin 2) = t.val / 64 ∧ win0_0.index t (1 : Fin 2) = t.val % 16)
    ∧ (win0_1.index t (0 : Fin 2) = t.val / 64 ∧ win0_1.index t (1 : Fin 2) = t.val % 16)
    ∧ (win0_2.index t (0 : Fin 2) = t.val / 16 % 4 ∧ win0_2.index t (1 : Fin 2) = t.val % 16)
    ∧ (win0_3.index t (0 : Fin 2) = 0 ∧ win0_3.index t (1 : Fin 2) = t.val / 16 % 4)
    ∧ (win0_4.index t (0 : Fin 2) = t.val / 64 ∧ win0_4.index t (1 : Fin 2) = t.val / 16 % 4))

/-- The even half as the region finds it: column `j` is column `2 j` of `x`. -/
theorem evens_apply (c : Dev nD) (r : Fin 8192) (j : Fin 2048) :
    (V m c main_v3 : S8192x2048.Idx → EReal) (ix2 r j) = argX m c (ix2 r ⟨j.val * 2, by have := j.isLt; omega⟩) := by
  have e : (V m c main_v3 : S8192x2048.Idx → EReal) =
      shapeCast S8192x2048 (extractStridedSlice S8192x2048x1 ![0, 0, 0]
        (shapeCast S8192x2048x2 (truncf (F := Ideal) .bf16 (argX m c) Gen.bitsLt_bf16_f32) Gen.shapeCasts_S8192x4096_S8192x2048x2)
        Gen.slices_S8192x2048x2_S8192x2048x1_0_0_0) Gen.shapeCasts_S8192x2048x1_S8192x2048 := by
    dsimp only [V, hostOps0]; after_results; rfl
  rw [e]
  refine (shapeCast_apply _ _ (ix2 r j) (ix3 r j (0 : Fin 1)) (by
    rw [Shape.rowMajor_val_three, Shape.rowMajor_val_two]
    show (r.val * 2048 + j.val) * 1 + 0 = r.val * 2048 + j.val; omega)).trans ?_
  refine (extractStridedSlice_apply _ _ _ (ix3 r j (0 : Fin 1)) (ix3 r j (0 : Fin 2)) (fun a => by
    match a with
    | ⟨0, _⟩ => show r.val = 0 + r.val; omega
    | ⟨1, _⟩ => show j.val = 0 + j.val; omega
    | ⟨2, _⟩ => rfl)).trans ?_
  refine (shapeCast_apply _ _ (ix3 r j (0 : Fin 2)) (ix2 r (⟨j.val * 2, by have := j.isLt; omega⟩ : Fin 4096)) (by
    rw [Shape.rowMajor_val_two, Shape.rowMajor_val_three]
    show r.val * 4096 + j.val * 2 = (r.val * 2048 + j.val) * 2 + 0; omega)).trans ?_
  rfl

/-- The odd half: column `j` is column `2 j + 1` of `x`. -/
theorem odds_apply (c : Dev nD) (r : Fin 8192) (j : Fin 2048) :
    (V m c main_v5 : S8192x2048.Idx → EReal) (ix2 r j) = argX m c (ix2 r ⟨j.val * 2 + 1, by have := j.isLt; omega⟩) := by
  have e : (V m c main_v5 : S8192x2048.Idx → EReal) =
      shapeCast S8192x2048 (extractStridedSlice S8192x2048x1 ![0, 0, 1]
        (shapeCast S8192x2048x2 (truncf (F := Ideal) .bf16 (argX m c) Gen.bitsLt_bf16_f32) Gen.shapeCasts_S8192x4096_S8192x2048x2)
        Gen.slices_S8192x2048x2_S8192x2048x1_0_0_1) Gen.shapeCasts_S8192x2048x1_S8192x2048 := by
    dsimp only [V, hostOps0]; after_results; rfl
  rw [e]
  refine (shapeCast_apply _ _ (ix2 r j) (ix3 r j (0 : Fin 1)) (by
    rw [Shape.rowMajor_val_three, Shape.rowMajor_val_two]
    show (r.val * 2048 + j.val) * 1 + 0 = r.val * 2048 + j.val; omega)).trans ?_
  refine (extractStridedSlice_apply _ _ _ (ix3 r j (0 : Fin 1)) (ix3 r j (1 : Fin 2)) (fun a => by
    match a with
    | ⟨0, _⟩ => show r.val = 0 + r.val; omega
    | ⟨1, _⟩ => show j.val = 0 + j.val; omega
    | ⟨2, _⟩ => rfl)).trans ?_
  refine (shapeCast_apply _ _ (ix3 r j (1 : Fin 2)) (ix2 r (⟨j.val * 2 + 1, by have := j.isLt; omega⟩ : Fin 4096)) (by
    rw [Shape.rowMajor_val_two, Shape.rowMajor_val_three]
    show r.val * 4096 + (j.val * 2 + 1) = (r.val * 2048 + j.val) * 2 + 1; omega)).trans ?_
  rfl

/-- The bias as a one-row matrix. -/
theorem biasrow_apply (c : Dev nD) (o : Fin 4096) :
    (V m c main_v6 : S1x4096.Idx → EReal) (ix2 (0 : Fin 1) o) = argB m c (ix1 o) := by
  have e : (V m c main_v6 : S1x4096.Idx → EReal) = shapeCast S1x4096 (argB m c) Gen.shapeCasts_S4096_S1x4096 := by
    dsimp only [V, hostOps0]; after_results; rfl
  rw [e]
  exact shapeCast_apply _ _ (ix2 (0 : Fin 1) o) (ix1 o) (by
    rw [Shape.rowMajor_val_one, Shape.rowMajor_val_two]
    show o.val = 0 * 4096 + o.val; omega)

/-- The windows' blocks at a grid point, each at its literal type. -/
abbrev xeBlk (c : Dev nD) (t : Fin cfg0.N) : Vec Ideal S2048x128 .bf16 := iblk m c 0 t
abbrev xoBlk (c : Dev nD) (t : Fin cfg0.N) : Vec Ideal S2048x128 .bf16 := iblk m c 1 t
abbrev wBlk (c : Dev nD) (t : Fin cfg0.N) : Vec Ideal S1024x128 .i32 := iblk m c 2 t
abbrev bBlk (c : Dev nD) (t : Fin cfg0.N) : Vec Ideal S1x1024 .f32 := iblk m c 3 t

/-- The even-activation block: rows of tile `t / 64`, even columns of step `t % 16`. -/
theorem xeBlk_apply (c : Dev nD) (t : Fin cfg0.N) (p : Fin 2048) (k : Fin 128)
    (r : Fin 8192) (hr : r.val = t.val / 64 * 2048 + p.val) (i : Fin 4096) (hi : i.val = (t.val % 16 * 128 + k.val) * 2) :
    xeBlk m c t (ix2 p k) = argX m c (ix2 r i) := by
  have hN : t.val < 256 := lt_of_lt_of_eq t.isLt N_0
  show V m c main_v3 (((cfg0.win 0).blk t).view.emb (ix2 p k)) = _
  have hidx : ((cfg0.win 0).blk t).view.emb (ix2 p k)
      = ix2 r (⟨t.val % 16 * 128 + k.val, by have := k.isLt; omega⟩ : Fin 2048) := funext fun a => Fin.ext (by
    match a with
    | ⟨0, _⟩ => show win0_0.index t 0 * 2048 + 1 * p.val = r.val; rw [(block_index t).1.1]; omega
    | ⟨1, _⟩ => show win0_0.index t 1 * 128 + 1 * k.val = t.val % 16 * 128 + k.val; rw [(block_index t).1.2]; omega)
  rw [hidx]
  exact (evens_apply m c r _).trans (congrArg (fun z => argX m c (ix2 r z)) (Fin.ext hi.symm))

/-- The odd-activation block likewise, at the odd columns. -/
theorem xoBlk_apply (c : Dev nD) (t : Fin cfg0.N) (p : Fin 2048) (k : Fin 128)
    (r : Fin 8192) (hr : r.val = t.val / 64 * 2048 + p.val) (i : Fin 4096) (hi : i.val = (t.val % 16 * 128 + k.val) * 2 + 1) :
    xoBlk m c t (ix2 p k) = argX m c (ix2 r i) := by
  have hN : t.val < 256 := lt_of_lt_of_eq t.isLt N_0
  show V m c main_v5 (((cfg0.win 1).blk t).view.emb (ix2 p k)) = _
  have hidx : ((cfg0.win 1).blk t).view.emb (ix2 p k)
      = ix2 r (⟨t.val % 16 * 128 + k.val, by have := k.isLt; omega⟩ : Fin 2048) := funext fun a => Fin.ext (by
    match a with
    | ⟨0, _⟩ => show win0_1.index t 0 * 2048 + 1 * p.val = r.val; rw [(block_index t).2.1.1]; omega
    | ⟨1, _⟩ => show win0_1.index t 1 * 128 + 1 * k.val = t.val % 16 * 128 + k.val; rw [(block_index t).2.1.2]; omega)
  rw [hidx]
  exact (odds_apply m c r _).trans (congrArg (fun z => argX m c (ix2 r z)) (Fin.ext hi.symm))

/-- The packed-weight block: rows of column tile `t / 16 % 4`, cells of step `t % 16`. -/
theorem wBlk_apply (c : Dev nD) (t : Fin cfg0.N) (q : Fin 1024) (k : Fin 128)
    (o : Fin 4096) (ho : o.val = t.val / 16 % 4 * 1024 + q.val) (j : Fin 2048) (hj : j.val = t.val % 16 * 128 + k.val) :
    wBlk m c t (ix2 q k) = argW m c (ix2 o j) := by
  show V m c main_arg1 (((cfg0.win 2).blk t).view.emb (ix2 q k)) = _
  have hidx : ((cfg0.win 2).blk t).view.emb (ix2 q k) = ix2 o j := funext fun a => Fin.ext (by
    match a with
    | ⟨0, _⟩ => show win0_2.index t 0 * 1024 + 1 * q.val = o.val; rw [(block_index t).2.2.1.1]; omega
    | ⟨1, _⟩ => show win0_2.index t 1 * 128 + 1 * k.val = j.val; rw [(block_index t).2.2.1.2]; omega)
  rw [hidx, V_main_arg1]

/-- The bias block: columns of column tile `t / 16 % 4`. -/
theorem bBlk_apply (c : Dev nD) (t : Fin cfg0.N) (q : Fin 1024)
    (o : Fin 4096) (ho : o.val = t.val / 16 % 4 * 1024 + q.val) :
    bBlk m c t (ix2 (0 : Fin 1) q) = argB m c (ix1 o) := by
  show V m c main_v6 (((cfg0.win 3).blk t).view.emb (ix2 (0 : Fin 1) q)) = _
  have hidx : ((cfg0.win 3).blk t).view.emb (ix2 (0 : Fin 1) q) = ix2 (0 : Fin 1) o := funext fun a => Fin.ext (by
    match a with
    | ⟨0, _⟩ => show win0_3.index t 0 * 1 + 1 * 0 = 0; rw [(block_index t).2.2.2.1.1]
    | ⟨1, _⟩ => show win0_3.index t 1 * 1024 + 1 * q.val = o.val; rw [(block_index t).2.2.2.1.2]; omega)
  rw [hidx]
  exact biasrow_apply m c o

end Cert.KernelIdeal.Inputs

end
-- ==== Proof.KernelFold.lean ====
/-
  The accumulator over a run of sixteen steps, and the output block its last step writes. Within the run that starts at
  grid point `16 d` the accumulator after the last step is zero plus the sum of the sixteen steps' contributions, and the
  output block the last step stores is that sum plus the bias row.
-/
import proofs.«427487_j12867722019333_3_alg».proof.Proof.Gen.KernelIdeal.Value
import proofs.«427487_j12867722019333_3_alg».proof.Proof.KernelPieces
import proofs.«427487_j12867722019333_3_alg».proof.Proof.KernelPayload
import proofs.«427487_j12867722019333_3_alg».proof.Proof.KernelInputs

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.Value Cert.KernelIdeal.Inputs Cert.KernelIdeal.Payload

variable (m : (ℓ : Loc nD τ sig) → Buf (Elt Ideal) ℓ)

/-- The contribution of the step at grid point `n` to the accumulator's entry `j` (nothing past the grid). -/
def stepAt (c : Dev nD) (n : ℕ) (j : S2048x1024.Idx) : EReal :=
  if h : n < cfg0.N then stepDot (xeBlk m c ⟨n, h⟩) (xoBlk m c ⟨n, h⟩) (wBlk m c ⟨n, h⟩) (j 0) (j 1) else 0

theorem stepAt_apply (c : Dev nD) (n : ℕ) (h : n < cfg0.N) (p : Fin 2048) (q : Fin 1024) :
    stepAt m c n (ix2 p q) = stepDot (xeBlk m c ⟨n, h⟩) (xoBlk m c ⟨n, h⟩) (wBlk m c ⟨n, h⟩) p q := by
  unfold stepAt
  rw [dif_pos h]

/-- A fold read at a step count given by an equation. -/
theorem accAt_at {α : Type} {N : ℕ} (a : (n : ℕ) → n < N → α) (g : (n : ℕ) → n < N → α → α) (b k k' : ℕ) (e : k = k')
    (h : b + k < N) : Pipeline.accAt a g b k h = Pipeline.accAt a g b k' (e ▸ h) := by
  subst e; rfl

/-- What a step leaves in the accumulator, over what the step before left: the first step of a run starts from the
    zeros it stores, every other step from the accumulator it finds. -/
theorem step_first (c : Dev nD) (n : ℕ) (h : n < cfg0.N) (h0 : n % 16 = 0) (acc : Vec Ideal S2048x1024 .f32)
    (p : Fin 2048) (q : Fin 1024) :
    scAt0_0 m c n h acc (ix2 p q) = 0 + stepAt m c n (ix2 p q) := by
  have h1 : ¬n % 16 = 15 := by omega
  unfold scAt0_0
  rw [dif_pos h0, dif_neg h1, Pieces.scratch_first]
  refine (update_apply (xeBlk m c ⟨n, h⟩) (xoBlk m c ⟨n, h⟩) (wBlk m c ⟨n, h⟩) (k0_pay1 (F := Ideal)) p q).trans ?_
  rw [zero_apply, stepAt_apply m c n h]

theorem step_later (c : Dev nD) (n : ℕ) (h : n < cfg0.N) (h0 : ¬n % 16 = 0) (acc : Vec Ideal S2048x1024 .f32)
    (p : Fin 2048) (q : Fin 1024) :
    scAt0_0 m c n h acc (ix2 p q) = acc (ix2 p q) + stepAt m c n (ix2 p q) := by
  unfold scAt0_0
  rw [dif_neg h0]
  by_cases h1 : n % 16 = 15
  · rw [dif_pos h1, Pieces.scratch_last]
    refine (update_apply (xeBlk m c ⟨n, h⟩) (xoBlk m c ⟨n, h⟩) (wBlk m c ⟨n, h⟩) acc p q).trans ?_
    rw [stepAt_apply m c n h]
  · rw [dif_neg h1, Pieces.scratch_middle]
    refine (update_apply (xeBlk m c ⟨n, h⟩) (xoBlk m c ⟨n, h⟩) (wBlk m c ⟨n, h⟩) acc p q).trans ?_
    rw [stepAt_apply m c n h]

/-- The accumulator after the last step of a run: zero plus the sum of the run's sixteen contributions. -/
theorem scratch_run (c : Dev nD) (t : Fin cfg0.N) (h15 : t.val % 16 = 15) (j : S2048x1024.Idx) :
    (outsAt0 m c t.val t.isLt).2 j = 0 + ∑ s ∈ Finset.range 16, stepAt m c (16 * (t.val / 16) + s) j := by
  have hN : t.val < 256 := lt_of_lt_of_eq t.isLt N_0
  rw [soutsAt0_0_eq m c t, accAt_at _ _ _ _ 15 h15]
  refine Pipeline.accAt_add_apply (N := cfg0.N) (fun n h => scAt0_0 m c n h (VS0_0.read (Elt Ideal) VS0_0.junk))
    (scAt0_0 m c) (fun _ => (0 : EReal)) (stepAt m c) (16 * (t.val / 16)) 15 ?_ ?_ 15 le_rfl _ j
  · intro h i
    obtain ⟨p, q, rfl⟩ : ∃ (p : Fin 2048) (q : Fin 1024), i = ix2 p q := ⟨i 0, i 1, eq_ix2 i⟩
    exact step_first m c _ h (by omega) _ p q
  · intro n h acc i hb he
    obtain ⟨p, q, rfl⟩ : ∃ (p : Fin 2048) (q : Fin 1024), i = ix2 p q := ⟨i 0, i 1, eq_ix2 i⟩
    exact step_later m c n h (by omega) acc p q

/-- The output block the last step of a run stores: that sum plus the bias row. -/
theorem output_run (c : Dev nD) (t : Fin cfg0.N) (h15 : t.val % 16 = 15) (p : Fin 2048) (q : Fin 1024) :
    (outsAt0 m c t.val t.isLt).1 (ix2 p q)
      = (0 + ∑ s ∈ Finset.range 16, stepAt m c (16 * (t.val / 16) + s) (ix2 p q)) + bBlk m c t (ix2 (0 : Fin 1) q) := by
  have h0 : ¬t.val % 16 = 0 := by omega
  have e2 := scratch_run m c t h15 (ix2 p q)
  rw [outsAt0_C m c t h0 h15] at e2 ⊢
  dsimp only at e2 ⊢
  rw [Pieces.scratch_last] at e2
  rw [Pieces.out_last]
  refine (output_apply _ (bBlk m c t) p q).trans ?_
  rw [e2]

end Cert.KernelIdeal.Fold

end
-- ==== Proof.KernelFinal.lean ====
/-
  The kernel's result array. The sixteen steps of a run walk the 2048 packed cells of a weight row in blocks of 128;
  each step adds the even activations against the low nibbles and the odd activations against the high nibbles of its
  block, so the run's contributions add up to the whole contraction over the 4096 input features (a sum over
  interleaved pairs taken block by block); the last step adds the bias. Every entry of the result lies in the block
  of exactly one run's last step (row tile, column tile), so the array ends holding the specification.
-/
import proofs.«427487_j12867722019333_3_alg».proof.Proof.KernelFold
import proofs.«427487_j12867722019333_3_alg».proof.Proof.LibPairBlocks
import proofs.«427487_j12867722019333_3_alg».proof.Proof.Spec

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Inputs Cert.KernelIdeal.Payload
open Cert.KernelIdeal.Fold Cert.PackedLinear

variable (m : (ℓ : Loc nD τ sig) → Buf (Elt Ideal) ℓ) (ρ : Dev nD → PrngReg)

/-- The specification of core `c`'s arguments. -/
abbrev resultArr (c : Dev nD) : Vec Ideal S8192x4096 .f32 := result (argX m c) (argW m c) (argB m c)

/-- Along one output row `r` and column `o`, the sixteen steps' contributions of the run through point `t` add up to
    the contraction over all input features. -/
theorem steps_sum (c : Dev nD) (t : Fin cfg0.N) (p : Fin 2048) (q : Fin 1024)
    (r : Fin 8192) (hr : r.val = t.val / 64 * 2048 + p.val) (o : Fin 4096) (ho : o.val = t.val / 16 % 4 * 1024 + q.val) :
    ∑ s ∈ Finset.range 16, stepAt m c (16 * (t.val / 16) + s) (ix2 p q)
      = ∑ i : Fin 4096, argX m c (ix2 r i) * weight (argW m c) o i := by
  have hN : t.val < 256 := lt_of_lt_of_eq t.isLt N_0
  have hp := p.isLt
  have hq := q.isLt
  refine Eq.trans ?_ (Cert.PairBlocks.sum_pairs_blocked 16 128
    (fun i : Fin 4096 => argX m c (ix2 r i) * weight (argW m c) o i)).symm
  rw [Finset.sum_range]
  refine Finset.sum_congr rfl fun s _ => ?_
  have hs := s.isLt
  have hn : 16 * (t.val / 16) + s.val < cfg0.N := lt_of_lt_of_eq (by omega : 16 * (t.val / 16) + s.val < 256) N_0.symm
  rw [stepAt_apply m c _ hn]
  unfold stepDot
  refine congrArg₂ (· + ·) (Finset.sum_congr rfl fun k _ => ?_) (Finset.sum_congr rfl fun k _ => ?_)
  · have hk := k.isLt
    rw [xeBlk_apply m c ⟨_, hn⟩ p k r (by show r.val = (16 * (t.val / 16) + s.val) / 64 * 2048 + p.val; omega)
        (⟨(s.val * 128 + k.val) * 2, by omega⟩ : Fin 4096)
        (by show (s.val * 128 + k.val) * 2 = ((16 * (t.val / 16) + s.val) % 16 * 128 + k.val) * 2; omega),
      wBlk_apply m c ⟨_, hn⟩ q k o (by show o.val = (16 * (t.val / 16) + s.val) / 16 % 4 * 1024 + q.val; omega)
        (⟨s.val * 128 + k.val, by omega⟩ : Fin 2048)
        (by show s.val * 128 + k.val = (16 * (t.val / 16) + s.val) % 16 * 128 + k.val; omega),
      ← weight_even (argW m c) o (⟨s.val * 128 + k.val, by omega⟩ : Fin 2048)
        (⟨(s.val * 128 + k.val) * 2, by omega⟩ : Fin 4096) rfl]
  · have hk := k.isLt
    rw [xoBlk_apply m c ⟨_, hn⟩ p k r (by show r.val = (16 * (t.val / 16) + s.val) / 64 * 2048 + p.val; omega)
        (⟨(s.val * 128 + k.val) * 2 + 1, by omega⟩ : Fin 4096)
        (by show (s.val * 128 + k.val) * 2 + 1 = ((16 * (t.val / 16) + s.val) % 16 * 128 + k.val) * 2 + 1; omega),
      wBlk_apply m c ⟨_, hn⟩ q k o (by show o.val = (16 * (t.val / 16) + s.val) / 16 % 4 * 1024 + q.val; omega)
        (⟨s.val * 128 + k.val, by omega⟩ : Fin 2048)
        (by show s.val * 128 + k.val = (16 * (t.val / 16) + s.val) % 16 * 128 + k.val; omega),
      ← weight_odd (argW m c) o (⟨s.val * 128 + k.val, by omega⟩ : Fin 2048)
        (⟨(s.val * 128 + k.val) * 2 + 1, by omega⟩ : Fin 4096) rfl]

/-- What a run's last step writes back is its block of the specification. -/
theorem flushed_eq (c : Dev nD) (t : Fin cfg0.N) (hf : (cfg0.win 4).flush t = true) :
    (dats m 0 c).flushed 4 t = ((cfg0.win 4).blk t).view.read (Elt Ideal) (resultArr m c) := by
  have h15 := (flush0_4 t).mp hf
  have hN : t.val < 256 := lt_of_lt_of_eq t.isLt N_0
  rw [flushed4]
  funext y
  obtain ⟨p, q, rfl⟩ : ∃ (p : Fin 2048) (q : Fin 1024), y = ix2 p q := ⟨y 0, y 1, eq_ix2 y⟩
  have hp := p.isLt
  have hq := q.isLt
  obtain ⟨r, hr⟩ : ∃ r : Fin 8192, r.val = t.val / 64 * 2048 + p.val := ⟨⟨_, by omega⟩, rfl⟩
  obtain ⟨o, ho⟩ : ∃ o : Fin 4096, o.val = t.val / 16 % 4 * 1024 + q.val := ⟨⟨_, by omega⟩, rfl⟩
  have hidx : ((cfg0.win 4).blk t).view.emb (ix2 p q) = ix2 r o :=
    funext fun a => Fin.ext (by
      match a with
      | ⟨0, _⟩ => show win0_4.index t 0 * 2048 + 1 * p.val = r.val; rw [(block_index t).2.2.2.2.1]; omega
      | ⟨1, _⟩ => show win0_4.index t 1 * 1024 + 1 * q.val = o.val; rw [(block_index t).2.2.2.2.2]; omega)
  show (outsAt0 m c t.val t.isLt).1 (ix2 p q) = resultArr m c (((cfg0.win 4).blk t).view.emb (ix2 p q))
  rw [hidx, output_run m c t h15 p q, zero_add, steps_sum m c t p q r hr o ho, bBlk_apply m c t q o ho]
  rfl

/-- An entry is in a point's output block when each coordinate is in the block's range. -/
theorem mem_blk (t : Fin cfg0.N) (i : S8192x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v7).slice (win0_4.rect t)).set ↔ _
  rw [View.set_slice_whole, Rect.mem_set_unit]
  exact Iff.rfl

/-- Every entry is written back by the last step of its row tile's and column tile's run. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  obtain ⟨tv, htv⟩ : ∃ tv, tv = (i 0).val / 2048 * 64 + (i 1).val / 1024 * 16 + 15 := ⟨_, rfl⟩
  have ht : tv < cfg0.N := lt_of_lt_of_eq (by omega : tv < 256) N_0.symm
  refine ⟨⟨tv, ht⟩, (flush0_4 _).mpr (by show tv % 16 = 15; omega), ?_⟩
  rw [mem_blk]
  have e0 : win0_4.index ⟨tv, ht⟩ (0 : Fin 2) = tv / 64 := (block_index ⟨tv, ht⟩).2.2.2.2.1
  have e1 : win0_4.index ⟨tv, ht⟩ (1 : Fin 2) = tv / 16 % 4 := (block_index ⟨tv, ht⟩).2.2.2.2.2
  intro a
  match a with
  | ⟨0, _⟩ =>
    show win0_4.index ⟨tv, ht⟩ (0 : Fin 2) * 2048 ≤ (i 0).val ∧ (i 0).val < win0_4.index ⟨tv, ht⟩ (0 : Fin 2) * 2048 + 2048
    rw [e0]; omega
  | ⟨1, _⟩ =>
    show win0_4.index ⟨tv, ht⟩ (1 : Fin 2) * 1024 ≤ (i 1).val ∧ (i 1).val < win0_4.index ⟨tv, ht⟩ (1 : Fin 2) * 1024 + 1024
    rw [e1]; omega

/-- The result array after the run is the specification. -/
theorem final (c : Dev nD) : (dats m 0 c).arrAt 4 cfg0.N = resultArr m c :=
  (dats m 0 c).arrAt_eq_of_cover 4 (resultArr m c) (flushed_eq m c) cover

/-- The kernel's run: the result at the specification of the arguments, the arguments unchanged. -/
theorem run : θ_run defs (onTc (τ := τ) (main (F := Ideal))) ⟨m, fun _ => 0, ρ⟩ fun r => ∀ c : Dev nD,
      r.2.mem ((c : Thread nD τ).loc main_v7) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.RefSpec.lean ====
/-
  The reference at the ideal values is the specification: its interleaved weight matrix `W[o, i]` — the two nibble
  planes stacked on a trailing axis of extent two and flattened, then transposed — holds at `(i, o)` the low nibble of
  cell `(o, i / 2)` for an even `i` and the high nibble for an odd one; the `dot_general` is the sum over the 4096 input
  features, and the bias is broadcast along the rows. The host's arithmetic shift is the vector unit's on 32-bit lanes.
-/
import proofs.«427487_j12867722019333_3_alg».proof.Proof.Gen.ReferenceIdeal.Read
import proofs.«427487_j12867722019333_3_alg».proof.Proof.Spec
import Idealize.ShloMosaic.Lib.KernelVsHost

noncomputable section

namespace Cert.ReferenceIdeal.RefSpec

open Idealize.ShloMosaic Idealize.ShloMosaic.ValueIdx
open Cert.ReferenceIdeal Cert.ReferenceIdeal.Gen Cert.ReferenceIdeal.Facts₀ Cert.ReferenceIdeal.Read Cert.PackedLinear

/-- The first nibble plane at a cell: the low nibble. -/
theorem plane_low (x1 : (⟨S4096x2048, .i32⟩ : BufTy).Contents (Elt Ideal)) (o : Fin 4096) (j : Fin 2048) :
    val_main_v2 (F := Ideal) x1 (ix2 o j) = lowNib (x1 (ix2 o j)) := by
  rw [val_main_v2_apply, val_main_v1_apply, val_main_v0_apply, val_main_c_apply]
  rfl

/-- The second nibble plane at a cell: the high nibble. -/
theorem plane_high (x1 : (⟨S4096x2048, .i32⟩ : BufTy).Contents (Elt Ideal)) (o : Fin 4096) (j : Fin 2048) :
    val_main_v7 (F := Ideal) x1 (ix2 o j) = highNib (x1 (ix2 o j)) := by
  rw [val_main_v7_apply, val_main_v6_apply, val_main_v5_apply, val_main_c_1_apply, val_main_v4_apply, val_main_v3_apply,
    val_main_c_0_apply, shrsi_unit .host .vector]
  rfl

/-- The transposed interleaved matrix at `(i, o)` is the unpacked weight `W[o, i]`. -/
theorem weights_apply (x1 : (⟨S4096x2048, .i32⟩ : BufTy).Contents (Elt Ideal)) (o : Fin 4096) (i : Fin 4096) :
    val_main_v12 (F := Ideal) x1 (ix2 i o) = weight x1 o i := by
  have hi := i.isLt
  have ho := o.isLt
  rw [val_main_v12_apply, val_main_v11_apply]
  unfold val_main_v10
  by_cases he : i.val % 2 = 0
  · rw [weight_even x1 o ⟨i.val / 2, by omega⟩ i (by show i.val = i.val / 2 * 2; omega), ← plane_low]
    refine (concatenate_apply_piece (t := S4096x2048x2) (2 : Fin 3)
      [⟨S4096x2048x1, val_main_v8 (F := Ideal) x1⟩, ⟨S4096x2048x1, val_main_v9 (F := Ideal) x1⟩] Facts₀.concatenates_S4096x2048x1_S4096x2048x1_S4096x2048x2_d2
      _ 0 (by simp) S4096x2048x1 (val_main_v8 (F := Ideal) x1) rfl rfl 0 rfl
      (ix3 o (⟨i.val / 2, by omega⟩ : Fin 2048) (0 : Fin 1)) ?_ ?_).trans ?_
    · intro b hb
      match b with
      | ⟨0, _⟩ => show o.val = (o.val * 4096 + i.val) / 4096; omega
      | ⟨1, _⟩ => show i.val / 2 = (o.val * 4096 + i.val) / 2 % 2048; omega
      | ⟨2, _⟩ => exact absurd rfl hb
    · show 0 + 0 = (o.val * 4096 + i.val) % 2; omega
    · rw [val_main_v8_apply]
      exact congrArg (val_main_v2 (F := Ideal) x1) (funext fun a => by
        match a with
        | ⟨0, _⟩ => rfl
        | ⟨1, _⟩ => rfl)
  · rw [weight_odd x1 o ⟨i.val / 2, by omega⟩ i (by show i.val = i.val / 2 * 2 + 1; omega), ← plane_high]
    refine (concatenate_apply_piece (t := S4096x2048x2) (2 : Fin 3)
      [⟨S4096x2048x1, val_main_v8 (F := Ideal) x1⟩, ⟨S4096x2048x1, val_main_v9 (F := Ideal) x1⟩] Facts₀.concatenates_S4096x2048x1_S4096x2048x1_S4096x2048x2_d2
      _ 1 (by simp) S4096x2048x1 (val_main_v9 (F := Ideal) x1) rfl rfl 1 rfl
      (ix3 o (⟨i.val / 2, by omega⟩ : Fin 2048) (0 : Fin 1)) ?_ ?_).trans ?_
    · intro b hb
      match b with
      | ⟨0, _⟩ => show o.val = (o.val * 4096 + i.val) / 4096; omega
      | ⟨1, _⟩ => show i.val / 2 = (o.val * 4096 + i.val) / 2 % 2048; omega
      | ⟨2, _⟩ => exact absurd rfl hb
    · show 1 + 0 = (o.val * 4096 + i.val) % 2; omega
    · rw [val_main_v9_apply]
      exact congrArg (val_main_v7 (F := Ideal) x1) (funext fun a => by
        match a with
        | ⟨0, _⟩ => rfl
        | ⟨1, _⟩ => rfl)

/-- The reference's result is the specification of its arguments. -/
theorem reference_eq (x0 : (⟨S8192x4096, .f32⟩ : BufTy).Contents (Elt Ideal)) (x1 : (⟨S4096x2048, .i32⟩ : BufTy).Contents (Elt Ideal))
    (x2 : (⟨S4096, .f32⟩ : BufTy).Contents (Elt Ideal)) :
    val_main_v16 (F := Ideal) x0 x1 x2 = result x0 x1 x2 := by
  funext j
  obtain ⟨r, o, rfl⟩ : ∃ (r : Fin 8192) (o : Fin 4096), j = ix2 r o := ⟨j 0, j 1, eq_ix2 j⟩
  rw [val_main_v16_apply, val_main_v13_apply, val_main_v15_apply, val_main_v14_apply, result_apply]
  refine congrArg₂ (· + ·) (Finset.sum_congr rfl fun k _ => ?_) ?_
  · have e1 : lidx_main_v13 (ix2 r o) k = ix2 r k := funext fun a => by
      match a with
      | ⟨0, _⟩ => rfl
      | ⟨1, _⟩ => rfl
    have e2 : ridx_main_v13 (ix2 r o) k = ix2 k o := funext fun a => by
      match a with
      | ⟨0, _⟩ => rfl
      | ⟨1, _⟩ => rfl
    rw [e1, e2, weights_apply]
  · exact congrArg x2 (funext fun a => by
      match a with
      | ⟨0, _⟩ => rfl)

end Cert.ReferenceIdeal.RefSpec

end
-- ==== Proof.lean ====
/-
  Packed 4-bit linear layer: `y = x · Wᵀ + bias` with `W` unpacked from two nibbles per 32-bit cell (low nibble the even
  input feature, high nibble the odd one), over f32[8192, 4096] activations, i32[4096, 2048] packed weights and an
  f32[4096] bias.

  The kernel never interleaves the nibbles: it splits the activations into even and odd columns and, per output tile
  [2048, 1024], walks the 2048 packed cells of the weight rows in sixteen steps of 128, each step adding into a
  scratch accumulator the product of [even | odd] activations with [low | high] nibble planes, concatenated along a
  contraction axis of 256; the last step adds the bias row and stores the tile. The reference interleaves the planes
  into a [4096, 4096] matrix, transposes it and takes one `dot_general` over the 4096 input features, then adds the
  broadcast bias.

  At the ideal values both are `y[r, o] = Σ_i x[r, i] · W[o, i] + bias[o]` (Spec.lean): a change of float format is the
  identity, an integer converts to itself whatever the float format, the host's arithmetic shift is the vector unit's
  on 32-bit lanes, and the kernel's order of summation — pairs (2 j, 2 j + 1) split into an even and an odd sum, the
  cells j taken sixteen blocks of 128 at a time, the blocks' sums added in step order onto zero — is a regrouping of the
  one sum over `i`, valid in any commutative monoid, so no finiteness of the inputs is used.

  Modules: Spec (the function), RefSpec (the reference's run is it), KernelPieces (what each control case of the body
  stores), KernelPayload (those stores element by element), KernelInputs (what the windows read of the arguments),
  KernelFold (the accumulator over a run of sixteen steps), KernelFinal (the result array), LibIdxSums and LibPairBlocks
  (finite sums over index types). The three frames are the generated ones; the idealization rewrote nothing.
-/
import proofs.«427487_j12867722019333_3_alg».proof.Defs
import proofs.«427487_j12867722019333_3_alg».proof.Proof.Gen.Kernel
import proofs.«427487_j12867722019333_3_alg».proof.Proof.Gen.Kernel.Frame
import proofs.«427487_j12867722019333_3_alg».proof.Proof.Gen.KernelIdeal
import proofs.«427487_j12867722019333_3_alg».proof.Proof.Gen.KernelIdeal.Frame
import proofs.«427487_j12867722019333_3_alg».proof.Proof.Gen.KernelIdeal.Value
import proofs.«427487_j12867722019333_3_alg».proof.Proof.Gen.ReferenceIdeal
import proofs.«427487_j12867722019333_3_alg».proof.Proof.Gen.ReferenceIdeal.Run
import proofs.«427487_j12867722019333_3_alg».proof.Proof.Gen.ReferenceIdeal.Read
import proofs.«427487_j12867722019333_3_alg».proof.Proof.Gen.Pre_finite_inputs
import proofs.«427487_j12867722019333_3_alg».proof.Proof.KernelFinal
import proofs.«427487_j12867722019333_3_alg».proof.Proof.RefSpec
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification of the (agreeing) arguments in their result arrays. -/
theorem algebraic : Cert.algebraic_KernelIdeal_ReferenceIdeal := by
  intro m ρ m' ρ' _ hagree
  refine ⟨fun c => Cert.KernelIdeal.Final.resultArr m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v16_eq _ _ _).trans (Cert.ReferenceIdeal.RefSpec.reference_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
